-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x2048 : Shape := ⟨2, ![1024, 2048]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x1024 .f32) (main_arg1 : FVec F S8x2048x1024 .f32) (main_arg2 : FVec F S8x2048x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S8x2048x1024 : Shape := ⟨3, ![8, 2048, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S1x4096 : Shape := ⟨2, ![1, 4096]⟩
abbrev S4096x1024 : Shape := ⟨2, ![4096, 1024]⟩
abbrev S1024x4096 : Shape := ⟨2, ![1024, 4096]⟩
abbrev S16384x1024 : Shape := ⟨2, ![16384, 1024]⟩
abbrev S128x1024 : Shape := ⟨2, ![128, 1024]⟩
abbrev S128x4096 : Shape := ⟨2, ![128, 4096]⟩

abbrev nBuf : Space → Nat
  | .hbm => 29
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096, .f32⟩
  | .hbm, ⟨13, _⟩ => ⟨S1x4096, .f32⟩
  | .hbm, ⟨14, _⟩ => ⟨S4096x1024, .f32⟩
  | .hbm, ⟨15, _⟩ => ⟨S4096x1024, .f32⟩
  | .hbm, ⟨16, _⟩ => ⟨S1024x4096, .f32⟩
  | .hbm, ⟨17, _⟩ => ⟨S1024x4096, .bf16⟩
  | .hbm, ⟨18, _⟩ => ⟨S1024x4096, .f32⟩
  | .hbm, ⟨19, _⟩ => ⟨S1024x4096, .bf16⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  shapeCasts_S4096_S1x4096 : S4096.ShapeCasts S1x4096
  slices_S4096x2048_S4096x1024_0_0 : S4096x2048.Slices ![0, 0] S4096x1024
  slices_S4096x2048_S4096x1024_0_1024 : S4096x2048.Slices ![0, 1024] S4096x1024
  transposes_S4096x1024_S1024x4096_1_0 : S4096x1024.Transposes [1, 0] S1024x4096
  bitsLt_bf16_f32 : FTy.bits .bf16 < FTy.bits .f32
  shapeCasts_S8x2048x1024_S16384x1024 : S8x2048x1024.ShapeCasts S16384x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  shapeCasts_S16384x1024_S8x2048x1024 : S16384x1024.ShapeCasts S8x2048x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S16384x1024.size a
  hwx0_6 : ∀ i : grid0.Coords, EltTy.bits .f32 = 32 ∨ (Rect.block (s := S16384x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S16384x1024.size a
  hwx0_7 : ∀ i : grid0.Coords, EltTy.bits .f32 = 32 ∨ (Rect.block (s := S16384x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S16384x1024.size a
  hwx0_8 : ∀ i : grid0.Coords, EltTy.bits .f32 = 32 ∨ (Rect.block (s := S16384x1024) S128x1024.size (cc0_transform_8 i) (hinb0_8 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_v9) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_2) S128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x2048 : Shape := ⟨2, ![1024, 2048]⟩
abbrev S1024 : Shape := ⟨1, ![1024]⟩
abbrev S8x2048x2048 : Shape := ⟨3, ![8, 2048, 2048]⟩
abbrev S4096x2048 : Shape := ⟨2, ![4096, 2048]⟩
abbrev S4096 : Shape := ⟨1, ![4096]⟩
abbrev S8x2048x4096 : Shape := ⟨3, ![8, 2048, 4096]⟩
abbrev S1x1x4096 : Shape := ⟨3, ![1, 1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S8x2048x2048, .f32⟩
  | .hbm, ⟨12, _⟩ => ⟨S4096x2048, .f32⟩
  | .hbm, ⟨13, _⟩ => ⟨S4096, .f32⟩
  | .hbm, ⟨14, _⟩ => ⟨S8x2048x4096, .f32⟩
  | .hbm, ⟨15, _⟩ => ⟨S1x1x4096, .f32⟩
  | .hbm, ⟨16, _⟩ => ⟨S8x2048x4096, .f32⟩
  | .hbm, ⟨17, _⟩ => ⟨S8x2048x4096, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8x2048x1024_S8x2048x1024_S8x2048x2048_d2 : Shape.Concatenates [S8x2048x1024, S8x2048x1024] S8x2048x2048 2
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  slices_S8x2048x4096_S8x2048x1024_0_0_0 : S8x2048x4096.Slices ![0, 0, 0] S8x2048x1024
  slices_S8x2048x4096_S8x2048x1024_0_0_1024 : S8x2048x4096.Slices ![0, 0, 1024] S8x2048x1024
  slices_S8x2048x4096_S8x2048x1024_0_0_2048 : S8x2048x4096.Slices ![0, 0, 2048] S8x2048x1024
  slices_S8x2048x4096_S8x2048x1024_0_0_3072 : S8x2048x4096.Slices ![0, 0, 3072] S8x2048x1024
  bcast_S_S8x2048x1024 : S_.BroadcastsInDim S8x2048x1024 (![] : Fin 0 → Fin S8x2048x1024.rank)
  dot_S8x2048x2048_S4096x2048_S8x2048x4096_2_1_01_0_n_n_wf : DotDims.WF S8x2048x2048 S4096x2048 S8x2048x4096 [2] [1] [0, 1] [0] [] []

variable [Facts₀]

def dot_S8x2048x2048_S4096x2048_S8x2048x4096_2_1_01_0_n_n : DotDims S8x2048x2048 S4096x2048 S8x2048x4096 where
  lhsContracting := [2]
  rhsContracting := [1]
  lhsNonContracting := [0, 1]
  rhsNonContracting := [0]
  lhsBatch := []
  rhsBatch := []
  wf := dot_S8x2048x2048_S4096x2048_S8x2048x4096_2_1_01_0_n_n_wf

class Facts : Prop extends Facts₀ where

variable [Facts]
-- ==== Proof.BitsSide.Host.lean ====
/-
  One TensorCore region between two stretches of host operations.  Before the region the host lays the
  four gate weight matrices one under another (a 4096 x 2048 matrix), cuts it into its left and right halves,
  transposes each half and narrows it, lays the four bias vectors end to end as one row, and flattens the three
  activation arrays to 16384 rows; after the region it folds the three result arrays back to 8 x 2048 x 1024.
  This module names the contents every TensorCore buffer has when the region is entered, shows that no host
  operation on either side writes an argument array, and reduces "every execution of the whole program ends with
  the arguments unchanged" to a run of the region that ends in the pipeline library's frame post.
-/
import proofs.«125670_j31104153158088_1_alg».proof.Proof.Gen.Kernel.Launch
import Idealize.ShloMosaic.Lib.Pipeline.FrameBody
import Idealize.ShloMosaic.Lib.Pipeline.FrameSuffix

set_option maxRecDepth 16384

noncomputable section

namespace Cert.Kernel.Region

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers' contents when the region is entered -/

/-- Core `c`'s buffer contents after the twelve host operations that precede the region, as a valuation. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the first stretch of host operations, the region, the second stretch; so it reduces to the
    region entered at `V` and continued by the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The three reshapes after the region touch only arrays of the pipeline and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and that is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the
    block index has not moved since the last fetch; for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or the
    block index has not moved since the last fetch; for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or the
    block index has not moved since the last fetch; for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetches it or the
    block index has not moved since the last fetch; for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetches it or the
    block index has not moved since the last fetch; for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the point fetches it or the
    block index has not moved since the last fetch; for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame post of the whole program from the region's -/

/-- For any proof data whose arrays are the region-entry contents, a run that ends in the pipeline library's frame
    post (every array of the pipeline at what the proof data computes, every other buffer as the later host
    operations leave it) ends with the eleven argument arrays as launched: none is an array of the pipeline, and no
    host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

end Cert.Kernel.Region

end
-- ==== Proof.BitsSide.Body.lean ====
/-
  The kernel body at one grid point.  It reads a 128-row block of each activation array, the two whole narrowed
  weight matrices and the bias row, forms the 128 x 4096 gate pre-activations
      (a-block · Wa) + (x-block · Wx) + bias,
  and stores three 128 x 1024 blocks: the output gate (the logistic of columns 3072..4095), the new cell state
  (logistic of columns 0..1023 times the old cell block, plus logistic of columns 1024..2047 times tanh of columns
  2048..3071), and the new hidden state (output gate times tanh of the new cell state).  Each store covers its whole
  staging buffer, so what a buffer holds afterwards is the stored value, whatever it held before.
-/
import proofs.«125670_j31104153158088_1_alg».proof.Proof.Gen.Kernel.Launch
import proofs.«125670_j31104153158088_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

abbrev rAct : Rect S128x1024 := Rect.unit (s := S128x1024) ![0, 0] S128x1024.size inb_S128x1024_S128x1024_0_0
abbrev rWgt : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What each result buffer holds after the body, from the six input blocks -/

/-- The output-gate buffer: one store of the whole block. -/
def outGate (x0 x1 : Vec F S128x1024 .f32) (x3 x4 : Vec F S1024x4096 .bf16) (x5 : Vec F S1x4096 .f32) : Vec F S128x1024 .f32 :=
  View.canon [⟨rAct, k0_pay2 (View.ld x0 rAct) (View.ld x1 rAct) (View.ld x3 rWgt) (View.ld x4 rWgt) (View.ld x5 rBias)⟩]

/-- The new-hidden-state buffer. -/
def outHidden (x0 x1 x2 : Vec F S128x1024 .f32) (x3 x4 : Vec F S1024x4096 .bf16) (x5 : Vec F S1x4096 .f32) : Vec F S128x1024 .f32 :=
  View.canon [⟨rAct, k0_pay4 (View.ld x0 rAct) (View.ld x1 rAct) (View.ld x3 rWgt) (View.ld x4 rWgt) (View.ld x5 rBias) (View.ld x2 rAct)⟩]

/-- The new-cell-state buffer. -/
def outCell (x0 x1 x2 : Vec F S128x1024 .f32) (x3 x4 : Vec F S1024x4096 .bf16) (x5 : Vec F S1x4096 .f32) : Vec F S128x1024 .f32 :=
  View.canon [⟨rAct, k0_pay3 (View.ld x0 rAct) (View.ld x1 rAct) (View.ld x3 rWgt) (View.ld x4 rWgt) (View.ld x5 rBias) (View.ld x2 rAct)⟩]

/-- A single store of the whole block covers the buffer. -/
theorem cover_whole (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

/-! ## The body's triple -/

set_option maxHeartbeats 1000000 in
/-- On whole staging memrefs, the six inputs' at contents `x0 … x5` and the three results' at anything, the body runs
    to a continuation that holds the inputs' as they were and each result's at its stored block. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (arg9 : Memref sig .tc .vmem S128x1024 .f32) (harg9 : arg9.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outGate x0 x1 x3 x4 x5) ∗ owns (c : Thread nD τ) arg8 fullShare (outHidden x0 x1 x2 x3 x4 x5) ∗ owns (c : Thread nD τ) arg9 fullShare (outCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_whole _)
  isplitl [H7]
  · iexists _; isplitr
    swap; · iexact H7
    ipureintro
    try dsimp only
    exact View.read_writes_eq_canon _ _ _ (cover_whole _)
  iexists _; isplitr
  swap; · iexact H8
  ipureintro
  try dsimp only
  exact View.read_writes_eq_canon _ _ _ (cover_whole _)

end Cert.Kernel.Region

end
-- ==== Proof.BitsSide.Run.lean ====
/-
  The region's run.  The proof data of the pipeline: every array as the region finds it; after the body at grid
  point `t` each input's staging buffer still at its block, each result's at the block the body stored.  The body
  obligation at a generic point then follows from the body's triple, and the pipeline library's launch theorem for a
  region between two stretches of host operations gives the run of the whole program: it terminates without a fault,
  every array of the pipeline ends at what the proof data computes, every other buffer as the later host operations
  leave it.  The frame is read off that.
-/
import proofs.«125670_j31104153158088_1_alg».proof.Proof.BitsSide.Host
import proofs.«125670_j31104153158088_1_alg».proof.Proof.BitsSide.Body
import proofs.«125670_j31104153158088_1_alg».proof.Proof.Gen.Kernel.Points

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outGate (iblk m c 0 t) (iblk m c 1 t) (iblk m c 3 t) (iblk m c 4 t) (iblk m c 5 t)
    | ⟨7, _⟩ => outHidden (iblk m c 0 t) (iblk m c 1 t) (iblk m c 2 t) (iblk m c 3 t) (iblk m c 4 t) (iblk m c 5 t)
    | ⟨8, _⟩ => outCell (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outGate (iblk m c 0 t) (iblk m c 1 t) (iblk m c 3 t) (iblk m c 4 t) (iblk m c 5 t) := by dsimp only [dats]
theorem after7 (c : Dev nD) (t : Fin cfg0.N) : (dats m 0 c).after 7 t = outHidden (iblk m c 0 t) (iblk m c 1 t) (iblk m c 2 t) (iblk m c 3 t) (iblk m c 4 t) (iblk m c 5 t) := by dsimp only [dats]
theorem after8 (c : Dev nD) (t : Fin cfg0.N) : (dats m 0 c).after 8 t = outCell (iblk m c 0 t) (iblk m c 1 t) (iblk m c 2 t) (iblk m c 3 t) (iblk m c 4 t) (iblk m c 5 t) := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- At any point the inputs' memrefs hold their blocks, so the body's triple applies; the invariant and the core's
    obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, with
    every array of the pipeline at what the proof data computes and every other unscoped buffer as the host
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Region

end
-- ==== Proof.IdealSide.Host.lean ====
/-
  One TensorCore region between two stretches of host operations.  Before the region the host lays the
  four gate weight matrices one under another (a 4096 x 2048 matrix), cuts it into its left and right halves,
  transposes each half and narrows it, lays the four bias vectors end to end as one row, and flattens the three
  activation arrays to 16384 rows; after the region it folds the three result arrays back to 8 x 2048 x 1024.
  This module names the contents every TensorCore buffer has when the region is entered, shows that no host
  operation on either side writes an argument array, and reduces "every execution of the whole program ends with
  the arguments unchanged" to a run of the region that ends in the pipeline library's frame post.
-/
import proofs.«125670_j31104153158088_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Region

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers' contents when the region is entered -/

/-- Core `c`'s buffer contents after the twelve host operations that precede the region, as a valuation. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the first stretch of host operations, the region, the second stretch; so it reduces to the
    region entered at `V` and continued by the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The three reshapes after the region touch only arrays of the pipeline and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and that is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes it either, and it is no array of the pipeline: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or the
    block index has not moved since the last fetch; for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or the
    block index has not moved since the last fetch; for any proof data over `V` whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or the
    block index has not moved since the last fetch; for any proof data over `V` whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetches it or the
    block index has not moved since the last fetch; for any proof data over `V` whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the point fetches it or the
    block index has not moved since the last fetch; for any proof data over `V` whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the point fetches it or the
    block index has not moved since the last fetch; for any proof data over `V` whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame post of the whole program from the region's -/

/-- For any proof data whose arrays are the region-entry contents, a run that ends in the pipeline library's frame
    post (every array of the pipeline at what the proof data computes, every other buffer as the later host
    operations leave it) ends with the eleven argument arrays as launched: none is an array of the pipeline, and no
    host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

end Cert.KernelIdeal.Region

end
-- ==== Proof.IdealSide.Body.lean ====
/-
  The kernel body at one grid point.  It reads a 128-row block of each activation array, the two whole narrowed
  weight matrices and the bias row, forms the 128 x 4096 gate pre-activations
      (a-block · Wa) + (x-block · Wx) + bias,
  and stores three 128 x 1024 blocks: the output gate (the logistic of columns 3072..4095), the new cell state
  (logistic of columns 0..1023 times the old cell block, plus logistic of columns 1024..2047 times tanh of columns
  2048..3071), and the new hidden state (output gate times tanh of the new cell state).  Each store covers its whole
  staging buffer, so what a buffer holds afterwards is the stored value, whatever it held before.
-/
import proofs.«125670_j31104153158088_1_alg».proof.Proof.Gen.KernelIdeal.Launch
import proofs.«125670_j31104153158088_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

abbrev rAct : Rect S128x1024 := Rect.unit (s := S128x1024) ![0, 0] S128x1024.size inb_S128x1024_S128x1024_0_0
abbrev rWgt : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What each result buffer holds after the body, from the six input blocks -/

/-- The output-gate buffer: one store of the whole block. -/
def outGate (x0 x1 : Vec F S128x1024 .f32) (x3 x4 : Vec F S1024x4096 .bf16) (x5 : Vec F S1x4096 .f32) : Vec F S128x1024 .f32 :=
  View.canon [⟨rAct, k0_pay2 (View.ld x0 rAct) (View.ld x1 rAct) (View.ld x3 rWgt) (View.ld x4 rWgt) (View.ld x5 rBias)⟩]

/-- The new-hidden-state buffer. -/
def outHidden (x0 x1 x2 : Vec F S128x1024 .f32) (x3 x4 : Vec F S1024x4096 .bf16) (x5 : Vec F S1x4096 .f32) : Vec F S128x1024 .f32 :=
  View.canon [⟨rAct, k0_pay4 (View.ld x0 rAct) (View.ld x1 rAct) (View.ld x3 rWgt) (View.ld x4 rWgt) (View.ld x5 rBias) (View.ld x2 rAct)⟩]

/-- The new-cell-state buffer. -/
def outCell (x0 x1 x2 : Vec F S128x1024 .f32) (x3 x4 : Vec F S1024x4096 .bf16) (x5 : Vec F S1x4096 .f32) : Vec F S128x1024 .f32 :=
  View.canon [⟨rAct, k0_pay3 (View.ld x0 rAct) (View.ld x1 rAct) (View.ld x3 rWgt) (View.ld x4 rWgt) (View.ld x5 rBias) (View.ld x2 rAct)⟩]

/-- A single store of the whole block covers the buffer. -/
theorem cover_whole (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

/-! ## The body's triple -/

set_option maxHeartbeats 1000000 in
/-- On whole staging memrefs, the six inputs' at contents `x0 … x5` and the three results' at anything, the body runs
    to a continuation that holds the inputs' as they were and each result's at its stored block. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (arg9 : Memref sig .tc .vmem S128x1024 .f32) (harg9 : arg9.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outGate x0 x1 x3 x4 x5) ∗ owns (c : Thread nD τ) arg8 fullShare (outHidden x0 x1 x2 x3 x4 x5) ∗ owns (c : Thread nD τ) arg9 fullShare (outCell x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_whole _)
  isplitl [H7]
  · iexists _; isplitr
    swap; · iexact H7
    ipureintro
    try dsimp only
    exact View.read_writes_eq_canon _ _ _ (cover_whole _)
  iexists _; isplitr
  swap; · iexact H8
  ipureintro
  try dsimp only
  exact View.read_writes_eq_canon _ _ _ (cover_whole _)

end Cert.KernelIdeal.Region

end
-- ==== Proof.IdealSide.Run.lean ====
/-
  The region's run.  The proof data of the pipeline: every array as the region finds it; after the body at grid
  point `t` each input's staging buffer still at its block, each result's at the block the body stored.  The body
  obligation at a generic point then follows from the body's triple, and the pipeline library's launch theorem for a
  region between two stretches of host operations gives the run of the whole program: it terminates without a fault,
  every array of the pipeline ends at what the proof data computes, every other buffer as the later host operations
  leave it.  The frame is read off that.
-/
import proofs.«125670_j31104153158088_1_alg».proof.Proof.IdealSide.Host
import proofs.«125670_j31104153158088_1_alg».proof.Proof.IdealSide.Body
import proofs.«125670_j31104153158088_1_alg».proof.Proof.Gen.KernelIdeal.Points

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outGate (iblk m c 0 t) (iblk m c 1 t) (iblk m c 3 t) (iblk m c 4 t) (iblk m c 5 t)
    | ⟨7, _⟩ => outHidden (iblk m c 0 t) (iblk m c 1 t) (iblk m c 2 t) (iblk m c 3 t) (iblk m c 4 t) (iblk m c 5 t)
    | ⟨8, _⟩ => outCell (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outGate (iblk m c 0 t) (iblk m c 1 t) (iblk m c 3 t) (iblk m c 4 t) (iblk m c 5 t) := by dsimp only [dats]
theorem after7 (c : Dev nD) (t : Fin cfg0.N) : (dats m 0 c).after 7 t = outHidden (iblk m c 0 t) (iblk m c 1 t) (iblk m c 2 t) (iblk m c 3 t) (iblk m c 4 t) (iblk m c 5 t) := by dsimp only [dats]
theorem after8 (c : Dev nD) (t : Fin cfg0.N) : (dats m 0 c).after 8 t = outCell (iblk m c 0 t) (iblk m c 1 t) (iblk m c 2 t) (iblk m c 3 t) (iblk m c 4 t) (iblk m c 5 t) := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- At any point the inputs' memrefs hold their blocks, so the body's triple applies; the invariant and the core's
    obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, with
    every array of the pipeline at what the proof data computes and every other unscoped buffer as the host
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Region

end
-- ==== Proof.Value.Spec.lean ====
/-
  The arithmetic of one LSTM cell step over the extended reals, row by row.

  For a row `r` of the flattened activations and a gate column `o` (4096 columns: forget, input, candidate and
  output gates, 1024 each) the pre-activation is
      pre r o = (Σ_k A[r,k] · Wa[k,o]) + (Σ_k X[r,k] · Wx[k,o]) + β[0,o],
  and the three results at (r, q), q < 1024, are
      gate   = σ(pre r (3072+q)),
      cell   = σ(pre r q) · C[r,q] + σ(pre r (1024+q)) · tanh(pre r (2048+q)),
      hidden = gate · tanh(cell),
  with σ the logistic function.  Two small facts join this form to the one that contracts all 2048 input columns
  at once and spells the logistic as 1 / (1 + exp(−z)): a sum of 2048 terms is the sum of its first 1024 plus the sum
  of its last 1024 (addition of extended reals is commutative and associative, so no finiteness is needed), and the
  float word 0x3F800000 is the number one.
-/
import Idealize.ShloMosaic.PureOps.Ideal
import Idealize.ShloMosaic.Lib.ValueIdx
import Mathlib.Algebra.BigOperators.Fin

noncomputable section

open scoped BigOperators

namespace Cert.Lstm

open Idealize.ShloMosaic Idealize.ShloMosaic.ValueIdx

/-- The float word of one is the number one. -/
theorem one_bits : Ideal.ofBits .f32 0x3F800000#32 = 1 := by
  simp [Ideal.ofBits, Ideal.ieee, -EReal.coe_mul]; norm_num

/-- The logistic function spelt with a quotient, an exponential and the literal one is the logistic function. -/
theorem logistic_spelt (z : EReal) :
    Ideal.div (Ideal.ofBits .f32 0x3F800000#32) (Ideal.ofBits .f32 0x3F800000#32 + Ideal.exp (-z)) = Ideal.logistic z := by
  rw [one_bits]; rfl

/-- A sum of 2048 terms is the sum of the first 1024 plus the sum of the last 1024. -/
theorem sum_halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

abbrev Rows : Shape := ⟨2, ![16384, 1024]⟩
abbrev Wide : Shape := ⟨2, ![1024, 4096]⟩
abbrev BiasRow : Shape := ⟨2, ![1, 4096]⟩

/-- The gate pre-activation of row `r` at gate column `o`. -/
def pre (A X : Rows.Idx → EReal) (Wa Wx : Wide.Idx → EReal) (β : BiasRow.Idx → EReal) (r : Fin 16384) (o : Fin 4096) : EReal :=
  (∑ k : Fin 1024, A (ix2 r k) * Wa (ix2 k o)) + (∑ k : Fin 1024, X (ix2 r k) * Wx (ix2 k o)) + β (ix2 0 o)

/-- The output gate at row `r`, column `q`. -/
def gateAt (A X : Rows.Idx → EReal) (Wa Wx : Wide.Idx → EReal) (β : BiasRow.Idx → EReal) (r : Fin 16384) (q : Fin 1024) : EReal :=
  Ideal.logistic (pre A X Wa Wx β r ⟨3072 + q.val, by omega⟩)

/-- The new cell state at row `r`, column `q`. -/
def cellAt (A X C : Rows.Idx → EReal) (Wa Wx : Wide.Idx → EReal) (β : BiasRow.Idx → EReal) (r : Fin 16384) (q : Fin 1024) : EReal :=
  Ideal.logistic (pre A X Wa Wx β r ⟨q.val, by omega⟩) * C (ix2 r q)
    + Ideal.logistic (pre A X Wa Wx β r ⟨1024 + q.val, by omega⟩) * Ideal.tanh (pre A X Wa Wx β r ⟨2048 + q.val, by omega⟩)

/-- The new hidden state at row `r`, column `q`. -/
def hiddenAt (A X C : Rows.Idx → EReal) (Wa Wx : Wide.Idx → EReal) (β : BiasRow.Idx → EReal) (r : Fin 16384) (q : Fin 1024) : EReal :=
  gateAt A X Wa Wx β r q * Ideal.tanh (cellAt A X C Wa Wx β r q)

/-- The three results as whole arrays of 16384 rows. -/
def gateArr (A X : Rows.Idx → EReal) (Wa Wx : Wide.Idx → EReal) (β : BiasRow.Idx → EReal) : Rows.Idx → EReal :=
  fun i => gateAt A X Wa Wx β (i 0) (i 1)
def cellArr (A X C : Rows.Idx → EReal) (Wa Wx : Wide.Idx → EReal) (β : BiasRow.Idx → EReal) : Rows.Idx → EReal :=
  fun i => cellAt A X C Wa Wx β (i 0) (i 1)
def hiddenArr (A X C : Rows.Idx → EReal) (Wa Wx : Wide.Idx → EReal) (β : BiasRow.Idx → EReal) : Rows.Idx → EReal :=
  fun i => hiddenAt A X C Wa Wx β (i 0) (i 1)

end Cert.Lstm

end
-- ==== Proof.Value.Block.lean ====
/-
  The kernel body's arithmetic read at one element of a block.  With x0, x1, x2 the 128 x 1024 blocks of the hidden
  state, the input and the cell state, x3 and x4 the two 1024 x 4096 weight matrices and x5 the 1 x 4096 bias row, the
  gate pre-activation at (p, o) is
      (Σ_k x0[p,k] · x3[k,o]) + (Σ_k x1[p,k] · x4[k,o]) + x5[0,o]
  (each matrix product into a zero accumulator is the plain sum; narrowing to bf16 is the identity on extended reals),
  and the three stored blocks at (p, q) are the logistic / tanh combinations of its four column groups.
-/
import proofs.«125670_j31104153158088_1_alg».proof.Proof.Gen.KernelIdeal.Skeleton
import proofs.«125670_j31104153158088_1_alg».proof.Proof.Value.Spec
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen
open Idealize.ShloMosaic Idealize.ShloMosaic.ValueIdx

/-! ## The matrix product's operand indices, axis by axis -/

theorem lhs_row (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_col (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_row (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_col (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A 128 x 1024 block times a 1024 x 4096 matrix into a zero accumulator, at (p, o): the sum over the 1024 shared
    coordinates. -/
theorem product_at (l : FVec Ideal S128x1024 .bf16) (r : FVec Ideal S1024x4096 .bf16) (p : Fin 128) (o : Fin 4096) :
    matmul dot_S128x1024_S1024x4096_S128x4096_1_0_0_1_n_n none l r (constant (F := Ideal) S128x4096 .f32 0x00000000#32) (ix2 p o)
      = ∑ k : Fin 1024, l (ix2 p k) * r (ix2 k o) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p o) ((ValueIdx.contrEquiv1 dot_S128x1024_S1024x4096_S128x4096_1_0_0_1_n_n 1024 rfl rfl).symm k) = ix2 p k := funext fun a => Fin.ext (by
    match a with
    | ⟨0, _⟩ => exact lhs_row _ _
    | ⟨1, _⟩ => exact (lhs_col _ _).trans hk)
  have er : dot_S128x1024_S1024x4096_S128x4096_1_0_0_1_n_n.rhsIdx (ix2 p o) ((ValueIdx.contrEquiv1 dot_S128x1024_S1024x4096_S128x4096_1_0_0_1_n_n 1024 rfl rfl).symm k) = ix2 k o := funext fun a => Fin.ext (by
    match a with
    | ⟨0, _⟩ => exact (rhs_row _ _).trans hk
    | ⟨1, _⟩ => exact rhs_col _ _)
  rw [el, er]

/-- The bias row spread over the 128 rows of a block, at (p, o). -/
theorem bias_at (x5 : FVec Ideal S1x4096 .f32) (p : Fin 128) (o : Fin 4096) :
    broadcastTo S128x4096 x5 broadcasts_S1x4096_S128x4096 (ix2 p o) = x5 (ix2 0 o) :=
  broadcastTo_apply x5 broadcasts_S1x4096_S128x4096 (ix2 p o) (ix2 0 o) (fun a => by
    match a with
    | ⟨0, _⟩ => show (0 : Nat) = if (1 : Nat) = 1 then 0 else _; rw [if_pos rfl]
    | ⟨1, _⟩ => show o.val = if (4096 : Nat) = 1 then 0 else o.val; rw [if_neg (by decide)])

/-- The gate pre-activation block at (p, o). -/
theorem pre_at (x0 x1 : Vec Ideal S128x1024 .f32) (x3 x4 : Vec Ideal S1024x4096 .bf16) (x5 : Vec Ideal S1x4096 .f32)
    (p : Fin 128) (o : Fin 4096) :
    k0_pay1 x0 x1 x3 x4 x5 (ix2 p o)
      = (∑ k : Fin 1024, x0 (ix2 p k) * x3 (ix2 k o)) + (∑ k : Fin 1024, x1 (ix2 p k) * x4 (ix2 k o)) + x5 (ix2 0 o) := by
  unfold k0_pay1
  simp only [shapeCast_self]
  show (matmul dot_S128x1024_S1024x4096_S128x4096_1_0_0_1_n_n none (truncf .bf16 x0 bitsLt_bf16_f32) x3 (constant (F := Ideal) S128x4096 .f32 0x00000000#32) (ix2 p o)
      + matmul dot_S128x1024_S1024x4096_S128x4096_1_0_0_1_n_n none (truncf .bf16 x1 bitsLt_bf16_f32) x4 (constant (F := Ideal) S128x4096 .f32 0x00000000#32) (ix2 p o))
      + broadcastTo S128x4096 x5 broadcasts_S1x4096_S128x4096 (ix2 p o) = _
  rw [product_at, product_at, bias_at]
  rfl

/-- A column group of the pre-activation block, at (p, q): the pre-activation at column `off + q`. -/
theorem group_at (off : Nat) (hs : S128x4096.Slices ![0, off] S128x1024) (g : FVec Ideal S128x4096 .f32)
    (p : Fin 128) (q : Fin 1024) (h : off + q.val < 4096) :
    extractStridedSlice S128x1024 ![0, off] g hs (ix2 p q) = g (ix2 p ⟨off + q.val, h⟩) :=
  extractStridedSlice_apply ![0, off] g hs (ix2 p q) (ix2 p ⟨off + q.val, h⟩) (fun a => by
    match a with
    | ⟨0, _⟩ => show p.val = 0 + p.val; omega
    | ⟨1, _⟩ => show off + q.val = off + q.val; rfl)

/-- The stored output-gate block at (p, q). -/
theorem gate_at (x0 x1 : Vec Ideal S128x1024 .f32) (x3 x4 : Vec Ideal S1024x4096 .bf16) (x5 : Vec Ideal S1x4096 .f32)
    (p : Fin 128) (q : Fin 1024) :
    k0_pay2 x0 x1 x3 x4 x5 (ix2 p q) = Ideal.logistic (k0_pay1 x0 x1 x3 x4 x5 (ix2 p ⟨3072 + q.val, by omega⟩)) := by
  unfold k0_pay2
  show Ideal.logistic (extractStridedSlice S128x1024 ![0, 3072] (k0_pay1 x0 x1 x3 x4 x5) slices_S128x4096_o0_3072_S128x1024 (ix2 p q)) = _
  rw [group_at 3072 _ _ p q (by omega)]

/-- The stored new-cell-state block at (p, q). -/
theorem cell_at (x0 x1 x2 : Vec Ideal S128x1024 .f32) (x3 x4 : Vec Ideal S1024x4096 .bf16) (x5 : Vec Ideal S1x4096 .f32)
    (p : Fin 128) (q : Fin 1024) :
    k0_pay3 x0 x1 x3 x4 x5 x2 (ix2 p q)
      = Ideal.logistic (k0_pay1 x0 x1 x3 x4 x5 (ix2 p ⟨q.val, by omega⟩)) * x2 (ix2 p q)
        + Ideal.logistic (k0_pay1 x0 x1 x3 x4 x5 (ix2 p ⟨1024 + q.val, by omega⟩))
          * Ideal.tanh (k0_pay1 x0 x1 x3 x4 x5 (ix2 p ⟨2048 + q.val, by omega⟩)) := by
  unfold k0_pay3
  simp only [shapeCast_self]
  show Ideal.logistic (extractStridedSlice S128x1024 ![0, 0] (k0_pay1 x0 x1 x3 x4 x5) slices_S128x4096_o0_0_S128x1024 (ix2 p q)) * x2 (ix2 p q)
      + Ideal.logistic (extractStridedSlice S128x1024 ![0, 1024] (k0_pay1 x0 x1 x3 x4 x5) slices_S128x4096_o0_1024_S128x1024 (ix2 p q))
        * Ideal.tanh (extractStridedSlice S128x1024 ![0, 2048] (k0_pay1 x0 x1 x3 x4 x5) slices_S128x4096_o0_2048_S128x1024 (ix2 p q)) = _
  rw [group_at 0 _ _ p q (by omega), group_at 1024 _ _ p q (by omega), group_at 2048 _ _ p q (by omega)]
  simp only [Nat.zero_add]

/-- The stored new-hidden-state block at (p, q). -/
theorem hidden_at (x0 x1 x2 : Vec Ideal S128x1024 .f32) (x3 x4 : Vec Ideal S1024x4096 .bf16) (x5 : Vec Ideal S1x4096 .f32)
    (p : Fin 128) (q : Fin 1024) :
    k0_pay4 x0 x1 x3 x4 x5 x2 (ix2 p q) = k0_pay2 x0 x1 x3 x4 x5 (ix2 p q) * Ideal.tanh (k0_pay3 x0 x1 x3 x4 x5 x2 (ix2 p q)) := rfl

/-- The same at any index of the block. -/
theorem hidden_at' (x0 x1 x2 : Vec Ideal S128x1024 .f32) (x3 x4 : Vec Ideal S1024x4096 .bf16) (x5 : Vec Ideal S1x4096 .f32)
    (y : S128x1024.Idx) :
    k0_pay4 x0 x1 x3 x4 x5 x2 y = k0_pay2 x0 x1 x3 x4 x5 y * Ideal.tanh (k0_pay3 x0 x1 x3 x4 x5 x2 y) := rfl

end Cert.KernelIdeal.BlockValue

end
-- ==== Proof.Value.Rows.lean ====
/-
  From a block to rows of the whole arrays.  If a 128-row block of each activation array is rows T·128 … T·128+127 of
  that array, and the weight and bias blocks are the whole weight and bias arrays, then what the body stores at element
  (p, q) of a result block is the row-by-row LSTM step at row T·128 + p, column q.
-/
import proofs.«125670_j31104153158088_1_alg».proof.Proof.Value.Block

noncomputable section

open scoped BigOperators

namespace Cert.KernelIdeal.BlockValue

open Cert.KernelIdeal Cert.KernelIdeal.Gen
open Idealize.ShloMosaic Idealize.ShloMosaic.ValueIdx

variable (A X C : Lstm.Rows.Idx → EReal) (Wa Wx : Lstm.Wide.Idx → EReal) (β : Lstm.BiasRow.Idx → EReal)
variable (x0 x1 x2 : Vec Ideal S128x1024 .f32) (x3 x4 : Vec Ideal S1024x4096 .bf16) (x5 : Vec Ideal S1x4096 .f32)

/-- The pre-activation block at (p, o) is the pre-activation of row `r` when row `p` of the two activation blocks is
    row `r` of the arrays. -/
theorem pre_rows (r : Fin 16384) (p : Fin 128)
    (h0 : ∀ k : Fin 1024, x0 (ix2 p k) = A (ix2 r k)) (h1 : ∀ k : Fin 1024, x1 (ix2 p k) = X (ix2 r k))
    (h3 : ∀ j, x3 j = Wa j) (h4 : ∀ j, x4 j = Wx j) (h5 : ∀ j, x5 j = β j) (o : Fin 4096) :
    k0_pay1 x0 x1 x3 x4 x5 (ix2 p o) = Lstm.pre A X Wa Wx β r o := by
  rw [pre_at]
  unfold Lstm.pre
  simp only [h0, h1, h3, h4, h5]

variable (T : Nat)

/-- The output-gate block is the output-gate array read at rows T·128 …. -/
theorem gate_rows (h0 : (∀ (y : S128x1024.Idx) (i : Lstm.Rows.Idx), (i 0).val = T * 128 + (y 0).val → (i 1).val = (y 1).val → x0 y = A i)) (h1 : (∀ (y : S128x1024.Idx) (i : Lstm.Rows.Idx), (i 0).val = T * 128 + (y 0).val → (i 1).val = (y 1).val → x1 y = X i))
    (h3 : ∀ j, x3 j = Wa j) (h4 : ∀ j, x4 j = Wx j) (h5 : ∀ j, x5 j = β j)
    (y : S128x1024.Idx) (i : Lstm.Rows.Idx) (hi0 : (i 0).val = T * 128 + (y 0).val) (hi1 : (i 1).val = (y 1).val) :
    k0_pay2 x0 x1 x3 x4 x5 y = Lstm.gateArr A X Wa Wx β i := by
  obtain ⟨p, q, rfl⟩ : ∃ (p : Fin 128) (q : Fin 1024), y = ix2 p q := ⟨y 0, y 1, eq_ix2 y⟩
  obtain ⟨r, q', rfl⟩ : ∃ (r : Fin 16384) (q' : Fin 1024), i = ix2 r q' := ⟨i 0, i 1, eq_ix2 i⟩
  obtain rfl : q' = q := Fin.ext hi1
  have hpre : ∀ o : Fin 4096, k0_pay1 x0 x1 x3 x4 x5 (ix2 p o) = Lstm.pre A X Wa Wx β r o :=
    pre_rows A X Wa Wx β x0 x1 x3 x4 x5 r p (fun k => h0 (ix2 p k) (ix2 r k) hi0 rfl) (fun k => h1 (ix2 p k) (ix2 r k) hi0 rfl) h3 h4 h5
  rw [gate_at, hpre]
  rfl

/-- The new-cell-state block is the new-cell-state array read at rows T·128 …. -/
theorem cell_rows (h0 : (∀ (y : S128x1024.Idx) (i : Lstm.Rows.Idx), (i 0).val = T * 128 + (y 0).val → (i 1).val = (y 1).val → x0 y = A i)) (h1 : (∀ (y : S128x1024.Idx) (i : Lstm.Rows.Idx), (i 0).val = T * 128 + (y 0).val → (i 1).val = (y 1).val → x1 y = X i)) (h2 : (∀ (y : S128x1024.Idx) (i : Lstm.Rows.Idx), (i 0).val = T * 128 + (y 0).val → (i 1).val = (y 1).val → x2 y = C i))
    (h3 : ∀ j, x3 j = Wa j) (h4 : ∀ j, x4 j = Wx j) (h5 : ∀ j, x5 j = β j)
    (y : S128x1024.Idx) (i : Lstm.Rows.Idx) (hi0 : (i 0).val = T * 128 + (y 0).val) (hi1 : (i 1).val = (y 1).val) :
    k0_pay3 x0 x1 x3 x4 x5 x2 y = Lstm.cellArr A X C Wa Wx β i := by
  obtain ⟨p, q, rfl⟩ : ∃ (p : Fin 128) (q : Fin 1024), y = ix2 p q := ⟨y 0, y 1, eq_ix2 y⟩
  obtain ⟨r, q', rfl⟩ : ∃ (r : Fin 16384) (q' : Fin 1024), i = ix2 r q' := ⟨i 0, i 1, eq_ix2 i⟩
  obtain rfl : q' = q := Fin.ext hi1
  have hpre : ∀ o : Fin 4096, k0_pay1 x0 x1 x3 x4 x5 (ix2 p o) = Lstm.pre A X Wa Wx β r o :=
    pre_rows A X Wa Wx β x0 x1 x3 x4 x5 r p (fun k => h0 (ix2 p k) (ix2 r k) hi0 rfl) (fun k => h1 (ix2 p k) (ix2 r k) hi0 rfl) h3 h4 h5
  rw [cell_at, hpre, hpre, hpre, h2 (ix2 p q') (ix2 r q') hi0 rfl]
  rfl

/-- The new-hidden-state block is the new-hidden-state array read at rows T·128 …. -/
theorem hidden_rows (h0 : (∀ (y : S128x1024.Idx) (i : Lstm.Rows.Idx), (i 0).val = T * 128 + (y 0).val → (i 1).val = (y 1).val → x0 y = A i)) (h1 : (∀ (y : S128x1024.Idx) (i : Lstm.Rows.Idx), (i 0).val = T * 128 + (y 0).val → (i 1).val = (y 1).val → x1 y = X i)) (h2 : (∀ (y : S128x1024.Idx) (i : Lstm.Rows.Idx), (i 0).val = T * 128 + (y 0).val → (i 1).val = (y 1).val → x2 y = C i))
    (h3 : ∀ j, x3 j = Wa j) (h4 : ∀ j, x4 j = Wx j) (h5 : ∀ j, x5 j = β j)
    (y : S128x1024.Idx) (i : Lstm.Rows.Idx) (hi0 : (i 0).val = T * 128 + (y 0).val) (hi1 : (i 1).val = (y 1).val) :
    k0_pay4 x0 x1 x3 x4 x5 x2 y = Lstm.hiddenArr A X C Wa Wx β i := by
  rw [hidden_at', gate_rows A X Wa Wx β x0 x1 x3 x4 x5 T h0 h1 h3 h4 h5 y i hi0 hi1,
    cell_rows A X C Wa Wx β x0 x1 x2 x3 x4 x5 T h0 h1 h2 h3 h4 h5 y i hi0 hi1]
  rfl

end Cert.KernelIdeal.BlockValue

end
-- ==== Proof.Value.Whole.lean ====
/-
  From blocks to arrays.  Grid point `t` (of 128) reads rows 128·t … 128·t+127 of the three activation arrays, the
  whole of the two weight matrices and of the bias row, and writes rows 128·t … 128·t+127 of each result array.  The
  blocks written tile the 16384 rows, so after the run each result array is, row by row, the LSTM step of the arrays
  the region was entered with.
-/
import proofs.«125670_j31104153158088_1_alg».proof.Proof.IdealSide.Run
import proofs.«125670_j31104153158088_1_alg».proof.Proof.Value.Rows
import Idealize.ShloMosaic.Lib.Pipeline.Value

set_option maxRecDepth 16384

noncomputable section

namespace Cert.KernelIdeal.Region

open Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The index maps over the grid: an activation or result window's block index at point `t` is (t, 0); a weight or
    bias window's is (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The arrays the region is entered with -/

abbrev hid (c : Dev nD) : Lstm.Rows.Idx → EReal := V m c main_v9
abbrev inp (c : Dev nD) : Lstm.Rows.Idx → EReal := V m c main_v10
abbrev cel (c : Dev nD) : Lstm.Rows.Idx → EReal := V m c main_v11
abbrev wHid (c : Dev nD) : Lstm.Wide.Idx → EReal := V m c main_v6
abbrev wInp (c : Dev nD) : Lstm.Wide.Idx → EReal := V m c main_v8
abbrev bia (c : Dev nD) : Lstm.BiasRow.Idx → EReal := V m c main_v2

/-! ## Each block read off its array -/

/-- A block of window 0 is 128 consecutive rows of its array. -/
theorem blk_hid (c : Dev nD) (t : Fin cfg0.N) (y : S128x1024.Idx) (i : Lstm.Rows.Idx)
    (h0 : (i 0).val = t.val * 128 + (y 0).val) (h1 : (i 1).val = (y 1).val) : iblk m c 0 t y = hid m c i := by
  show V m c main_v9 (((cfg0.win 0).blk t).view.emb y) = V m c main_v9 i
  refine congrArg _ (funext fun a => Fin.ext ?_)
  obtain ⟨e00, e01, e10, e11, e20, e21, e30, e31, e40, e41, e50, e51, e60, e61, e70, e71, e80, e81⟩ := idx_facts t
  match a with
  | ⟨0, _⟩ => show win0_0.index t (0 : Fin 2) * 128 + 1 * (y 0).val = (i 0).val; omega
  | ⟨1, _⟩ => show win0_0.index t (1 : Fin 2) * 1024 + 1 * (y 1).val = (i 1).val; omega

/-- A block of window 1 is 128 consecutive rows of its array. -/
theorem blk_inp (c : Dev nD) (t : Fin cfg0.N) (y : S128x1024.Idx) (i : Lstm.Rows.Idx)
    (h0 : (i 0).val = t.val * 128 + (y 0).val) (h1 : (i 1).val = (y 1).val) : iblk m c 1 t y = inp m c i := by
  show V m c main_v10 (((cfg0.win 1).blk t).view.emb y) = V m c main_v10 i
  refine congrArg _ (funext fun a => Fin.ext ?_)
  obtain ⟨e00, e01, e10, e11, e20, e21, e30, e31, e40, e41, e50, e51, e60, e61, e70, e71, e80, e81⟩ := idx_facts t
  match a with
  | ⟨0, _⟩ => show win0_1.index t (0 : Fin 2) * 128 + 1 * (y 0).val = (i 0).val; omega
  | ⟨1, _⟩ => show win0_1.index t (1 : Fin 2) * 1024 + 1 * (y 1).val = (i 1).val; omega

/-- A block of window 2 is 128 consecutive rows of its array. -/
theorem blk_cel (c : Dev nD) (t : Fin cfg0.N) (y : S128x1024.Idx) (i : Lstm.Rows.Idx)
    (h0 : (i 0).val = t.val * 128 + (y 0).val) (h1 : (i 1).val = (y 1).val) : iblk m c 2 t y = cel m c i := by
  show V m c main_v11 (((cfg0.win 2).blk t).view.emb y) = V m c main_v11 i
  refine congrArg _ (funext fun a => Fin.ext ?_)
  obtain ⟨e00, e01, e10, e11, e20, e21, e30, e31, e40, e41, e50, e51, e60, e61, e70, e71, e80, e81⟩ := idx_facts t
  match a with
  | ⟨0, _⟩ => show win0_2.index t (0 : Fin 2) * 128 + 1 * (y 0).val = (i 0).val; omega
  | ⟨1, _⟩ => show win0_2.index t (1 : Fin 2) * 1024 + 1 * (y 1).val = (i 1).val; omega

/-- The one block of window 3 is its whole array. -/
theorem blk_wHid (c : Dev nD) (t : Fin cfg0.N) (j : S1024x4096.Idx) : iblk m c 3 t j = wHid m c j := by
  show V m c main_v6 (((cfg0.win 3).blk t).view.emb j) = V m c main_v6 j
  refine congrArg _ (funext fun a => Fin.ext ?_)
  obtain ⟨e00, e01, e10, e11, e20, e21, e30, e31, e40, e41, e50, e51, e60, e61, e70, e71, e80, e81⟩ := idx_facts t
  match a with
  | ⟨0, _⟩ => show win0_3.index t (0 : Fin 2) * 1024 + 1 * (j 0).val = (j 0).val; omega
  | ⟨1, _⟩ => show win0_3.index t (1 : Fin 2) * 4096 + 1 * (j 1).val = (j 1).val; omega

/-- The one block of window 4 is its whole array. -/
theorem blk_wInp (c : Dev nD) (t : Fin cfg0.N) (j : S1024x4096.Idx) : iblk m c 4 t j = wInp m c j := by
  show V m c main_v8 (((cfg0.win 4).blk t).view.emb j) = V m c main_v8 j
  refine congrArg _ (funext fun a => Fin.ext ?_)
  obtain ⟨e00, e01, e10, e11, e20, e21, e30, e31, e40, e41, e50, e51, e60, e61, e70, e71, e80, e81⟩ := idx_facts t
  match a with
  | ⟨0, _⟩ => show win0_4.index t (0 : Fin 2) * 1024 + 1 * (j 0).val = (j 0).val; omega
  | ⟨1, _⟩ => show win0_4.index t (1 : Fin 2) * 4096 + 1 * (j 1).val = (j 1).val; omega

/-- The one block of window 5 is its whole array. -/
theorem blk_bia (c : Dev nD) (t : Fin cfg0.N) (j : S1x4096.Idx) : iblk m c 5 t j = bia m c j := by
  show V m c main_v2 (((cfg0.win 5).blk t).view.emb j) = V m c main_v2 j
  refine congrArg _ (funext fun a => Fin.ext ?_)
  obtain ⟨e00, e01, e10, e11, e20, e21, e30, e31, e40, e41, e50, e51, e60, e61, e70, e71, e80, e81⟩ := idx_facts t
  match a with
  | ⟨0, _⟩ => show win0_5.index t (0 : Fin 2) * 1 + 1 * (j 0).val = (j 0).val; omega
  | ⟨1, _⟩ => show win0_5.index t (1 : Fin 2) * 4096 + 1 * (j 1).val = (j 1).val; omega

/-! ## The three result arrays -/

/-- What grid point `t` writes back to result window 6 is block `t` of the gate array. -/
theorem flushed_gate (c : Dev nD) (t : Fin cfg0.N) :
    (dats m 0 c).flushed 6 t = ((cfg0.win 6).blk t).view.read (Elt Ideal) (Lstm.gateArr (hid m c) (inp m c) (wHid m c) (wInp m c) (bia m c)) := by
  show (cfg0.win 6).cut (grid0.coords t) ((dats m 0 c).after 6 t) = _
  rw [after6]
  unfold outGate
  rw [View.canon_unit_zero hz]
  simp only [View.ld_unit_zero (S := S128x1024) hz, View.ld_unit_zero (S := S1024x4096) hz, View.ld_unit_zero (S := S1x4096) hz]
  funext y
  obtain ⟨e00, e01, e10, e11, e20, e21, e30, e31, e40, e41, e50, e51, e60, e61, e70, e71, e80, e81⟩ := idx_facts t
  show k0_pay2 (iblk m c 0 t) (iblk m c 1 t) (iblk m c 3 t) (iblk m c 4 t) (iblk m c 5 t) y = Lstm.gateArr (hid m c) (inp m c) (wHid m c) (wInp m c) (bia m c) (((cfg0.win 6).blk t).view.emb y)
  exact BlockValue.gate_rows (hid m c) (inp m c) (wHid m c) (wInp m c) (bia m c) (iblk m c 0 t) (iblk m c 1 t) (iblk m c 3 t) (iblk m c 4 t) (iblk m c 5 t) t.val
    (fun y i h0 h1 => blk_hid m c t y i h0 h1) (fun y i h0 h1 => blk_inp m c t y i h0 h1)
    (blk_wHid m c t) (blk_wInp m c t) (blk_bia m c t) y (((cfg0.win 6).blk t).view.emb y)
    (by show win0_6.index t (0 : Fin 2) * 128 + 1 * (y 0).val = t.val * 128 + (y 0).val; omega)
    (by show win0_6.index t (1 : Fin 2) * 1024 + 1 * (y 1).val = (y 1).val; omega)

/-- An index of the array lies in point `t`'s block iff each coordinate lies in the block's range. -/
theorem mem_blk6 (t : Fin cfg0.N) (i : S16384x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v12_0).slice (win0_6.rect t)).set ↔ _
  rw [View.set_slice_whole, Rect.mem_set_unit]
  exact Iff.rfl

/-- Row `r` of the array lies in the block of point `r / 128`: the 128 blocks tile the 16384 rows. -/
theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ : ∃ t : Fin cfg0.N, t.val = (i 0).val / 128 := ⟨⟨(i 0).val / 128, by rw [show cfg0.N = 128 from N_0]; omega⟩, rfl⟩
  obtain ⟨e00, e01, e10, e11, e20, e21, e30, e31, e40, e41, e50, e51, e60, e61, e70, e71, e80, e81⟩ := idx_facts t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

/-- After the run the gate array is the row-by-row LSTM step of the arrays the region was entered with. -/
theorem final_gate (c : Dev nD) : (dats m 0 c).arrAt 6 cfg0.N = Lstm.gateArr (hid m c) (inp m c) (wHid m c) (wInp m c) (bia m c) :=
  (dats m 0 c).arrAt_eq_of_cover 6 (Lstm.gateArr (hid m c) (inp m c) (wHid m c) (wInp m c) (bia m c)) (fun t _ => flushed_gate m c t) (cover6)

/-- What grid point `t` writes back to result window 7 is block `t` of the hidden array. -/
theorem flushed_hidden (c : Dev nD) (t : Fin cfg0.N) :
    (dats m 0 c).flushed 7 t = ((cfg0.win 7).blk t).view.read (Elt Ideal) (Lstm.hiddenArr (hid m c) (inp m c) (cel m c) (wHid m c) (wInp m c) (bia m c)) := by
  show (cfg0.win 7).cut (grid0.coords t) ((dats m 0 c).after 7 t) = _
  rw [after7]
  unfold outHidden
  rw [View.canon_unit_zero hz]
  simp only [View.ld_unit_zero (S := S128x1024) hz, View.ld_unit_zero (S := S1024x4096) hz, View.ld_unit_zero (S := S1x4096) hz]
  funext y
  obtain ⟨e00, e01, e10, e11, e20, e21, e30, e31, e40, e41, e50, e51, e60, e61, e70, e71, e80, e81⟩ := idx_facts t
  show k0_pay4 (iblk m c 0 t) (iblk m c 1 t) (iblk m c 3 t) (iblk m c 4 t) (iblk m c 5 t) (iblk m c 2 t) y = Lstm.hiddenArr (hid m c) (inp m c) (cel m c) (wHid m c) (wInp m c) (bia m c) (((cfg0.win 7).blk t).view.emb y)
  exact BlockValue.hidden_rows (hid m c) (inp m c) (cel m c) (wHid m c) (wInp m c) (bia m c) (iblk m c 0 t) (iblk m c 1 t) (iblk m c 2 t) (iblk m c 3 t) (iblk m c 4 t) (iblk m c 5 t) t.val
    (fun y i h0 h1 => blk_hid m c t y i h0 h1) (fun y i h0 h1 => blk_inp m c t y i h0 h1) (fun y i h0 h1 => blk_cel m c t y i h0 h1)
    (blk_wHid m c t) (blk_wInp m c t) (blk_bia m c t) y (((cfg0.win 7).blk t).view.emb y)
    (by show win0_7.index t (0 : Fin 2) * 128 + 1 * (y 0).val = t.val * 128 + (y 0).val; omega)
    (by show win0_7.index t (1 : Fin 2) * 1024 + 1 * (y 1).val = (y 1).val; omega)

/-- An index of the array lies in point `t`'s block iff each coordinate lies in the block's range. -/
theorem mem_blk7 (t : Fin cfg0.N) (i : S16384x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v12_1).slice (win0_7.rect t)).set ↔ _
  rw [View.set_slice_whole, Rect.mem_set_unit]
  exact Iff.rfl

/-- Row `r` of the array lies in the block of point `r / 128`: the 128 blocks tile the 16384 rows. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ : ∃ t : Fin cfg0.N, t.val = (i 0).val / 128 := ⟨⟨(i 0).val / 128, by rw [show cfg0.N = 128 from N_0]; omega⟩, rfl⟩
  obtain ⟨e00, e01, e10, e11, e20, e21, e30, e31, e40, e41, e50, e51, e60, e61, e70, e71, e80, e81⟩ := idx_facts t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-- After the run the hidden array is the row-by-row LSTM step of the arrays the region was entered with. -/
theorem final_hidden (c : Dev nD) : (dats m 0 c).arrAt 7 cfg0.N = Lstm.hiddenArr (hid m c) (inp m c) (cel m c) (wHid m c) (wInp m c) (bia m c) :=
  (dats m 0 c).arrAt_eq_of_cover 7 (Lstm.hiddenArr (hid m c) (inp m c) (cel m c) (wHid m c) (wInp m c) (bia m c)) (fun t _ => flushed_hidden m c t) (cover7)

/-- What grid point `t` writes back to result window 8 is block `t` of the cell array. -/
theorem flushed_cell (c : Dev nD) (t : Fin cfg0.N) :
    (dats m 0 c).flushed 8 t = ((cfg0.win 8).blk t).view.read (Elt Ideal) (Lstm.cellArr (hid m c) (inp m c) (cel m c) (wHid m c) (wInp m c) (bia m c)) := by
  show (cfg0.win 8).cut (grid0.coords t) ((dats m 0 c).after 8 t) = _
  rw [after8]
  unfold outCell
  rw [View.canon_unit_zero hz]
  simp only [View.ld_unit_zero (S := S128x1024) hz, View.ld_unit_zero (S := S1024x4096) hz, View.ld_unit_zero (S := S1x4096) hz]
  funext y
  obtain ⟨e00, e01, e10, e11, e20, e21, e30, e31, e40, e41, e50, e51, e60, e61, e70, e71, e80, e81⟩ := idx_facts t
  show k0_pay3 (iblk m c 0 t) (iblk m c 1 t) (iblk m c 3 t) (iblk m c 4 t) (iblk m c 5 t) (iblk m c 2 t) y = Lstm.cellArr (hid m c) (inp m c) (cel m c) (wHid m c) (wInp m c) (bia m c) (((cfg0.win 8).blk t).view.emb y)
  exact BlockValue.cell_rows (hid m c) (inp m c) (cel m c) (wHid m c) (wInp m c) (bia m c) (iblk m c 0 t) (iblk m c 1 t) (iblk m c 2 t) (iblk m c 3 t) (iblk m c 4 t) (iblk m c 5 t) t.val
    (fun y i h0 h1 => blk_hid m c t y i h0 h1) (fun y i h0 h1 => blk_inp m c t y i h0 h1) (fun y i h0 h1 => blk_cel m c t y i h0 h1)
    (blk_wHid m c t) (blk_wInp m c t) (blk_bia m c t) y (((cfg0.win 8).blk t).view.emb y)
    (by show win0_8.index t (0 : Fin 2) * 128 + 1 * (y 0).val = t.val * 128 + (y 0).val; omega)
    (by show win0_8.index t (1 : Fin 2) * 1024 + 1 * (y 1).val = (y 1).val; omega)

/-- An index of the array lies in point `t`'s block iff each coordinate lies in the block's range. -/
theorem mem_blk8 (t : Fin cfg0.N) (i : S16384x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v12_2).slice (win0_8.rect t)).set ↔ _
  rw [View.set_slice_whole, Rect.mem_set_unit]
  exact Iff.rfl

/-- Row `r` of the array lies in the block of point `r / 128`: the 128 blocks tile the 16384 rows. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, ht⟩ : ∃ t : Fin cfg0.N, t.val = (i 0).val / 128 := ⟨⟨(i 0).val / 128, by rw [show cfg0.N = 128 from N_0]; omega⟩, rfl⟩
  obtain ⟨e00, e01, e10, e11, e20, e21, e30, e31, e40, e41, e50, e51, e60, e61, e70, e71, e80, e81⟩ := idx_facts t
  refine ⟨t, flush0_8 t, ?_⟩
  rw [mem_blk8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 1024 ≤ (i 1).val ∧ (i 1).val < win0_8.index t (1 : Fin 2) * 1024 + 1024; omega

/-- After the run the cell array is the row-by-row LSTM step of the arrays the region was entered with. -/
theorem final_cell (c : Dev nD) : (dats m 0 c).arrAt 8 cfg0.N = Lstm.cellArr (hid m c) (inp m c) (cel m c) (wHid m c) (wInp m c) (bia m c) :=
  (dats m 0 c).arrAt_eq_of_cover 8 (Lstm.cellArr (hid m c) (inp m c) (cel m c) (wHid m c) (wInp m c) (bia m c)) (fun t _ => flushed_cell m c t) (cover8)

end Cert.KernelIdeal.Region

end
-- ==== Proof.Value.KernelRun.lean ====
/-
  The idealized kernel's run with its three results named: each is the corresponding result array of the region
  (16384 rows) folded back to 8 x 2048 x 1024 by the host after the region; the arguments end as launched.
-/
import proofs.«125670_j31104153158088_1_alg».proof.Proof.Value.Whole
import Idealize.ShloMosaic.Lib.StableHlo.Run

set_option maxRecDepth 16384

noncomputable section

namespace Cert.KernelIdeal.Region

open Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The gate result: the gate array folded back to 8 x 2048 x 1024. -/
theorem tail_gate (c : Dev nD) :
    Pipeline.afterTail₀ cfgs (dats m) 0 (V0 m) [hostOps1] c main_v13
      = shapeCast S8x2048x1024 (Lstm.gateArr (hid m c) (inp m c) (wHid m c) (wInp m c) (bia m c)) shapeCasts_S16384x1024_S8x2048x1024 := by
  unfold Pipeline.afterTail₀
  show StableHlo.after hostOps1 _ (Proc.devRef .tc main_v13) = _
  after_results
  rw [(Pipeline.withArrays_arr spec0 launch0.win.arr_inj c _ _ 6).trans (final_gate m c)]
  rfl

/-- The hidden result: the hidden array folded back to 8 x 2048 x 1024. -/
theorem tail_hidden (c : Dev nD) :
    Pipeline.afterTail₀ cfgs (dats m) 0 (V0 m) [hostOps1] c main_v14
      = shapeCast S8x2048x1024 (Lstm.hiddenArr (hid m c) (inp m c) (cel m c) (wHid m c) (wInp m c) (bia m c)) shapeCasts_S16384x1024_S8x2048x1024 := by
  unfold Pipeline.afterTail₀
  show StableHlo.after hostOps1 _ (Proc.devRef .tc main_v14) = _
  after_results
  rw [(Pipeline.withArrays_arr spec0 launch0.win.arr_inj c _ _ 7).trans (final_hidden m c)]
  rfl

/-- The cell result: the cell array folded back to 8 x 2048 x 1024. -/
theorem tail_cell (c : Dev nD) :
    Pipeline.afterTail₀ cfgs (dats m) 0 (V0 m) [hostOps1] c main_v15
      = shapeCast S8x2048x1024 (Lstm.cellArr (hid m c) (inp m c) (cel m c) (wHid m c) (wInp m c) (bia m c)) shapeCasts_S16384x1024_S8x2048x1024 := by
  unfold Pipeline.afterTail₀
  show StableHlo.after hostOps1 _ (Proc.devRef .tc main_v15) = _
  after_results
  rw [(Pipeline.withArrays_arr spec0 launch0.win.arr_inj c _ _ 8).trans (final_cell m c)]
  rfl

/-- Every weakly fair execution of the idealized kernel terminates with the three results at the folded result arrays
    and the eleven arguments as launched. -/
theorem run_values : θ_run defs (onTc (τ := τ) (main (F := Ideal))) ⟨m, fun _ => 0, ρ⟩ (fun r => ∀ c : Dev nD,
      r.2.mem ((c.tc : Thread nD τ).loc main_v13) = shapeCast S8x2048x1024 (Lstm.gateArr (hid m c) (inp m c) (wHid m c) (wInp m c) (bia m c)) shapeCasts_S16384x1024_S8x2048x1024
      ∧ r.2.mem ((c.tc : Thread nD τ).loc main_v14) = shapeCast S8x2048x1024 (Lstm.hiddenArr (hid m c) (inp m c) (cel m c) (wHid m c) (wInp m c) (bia m c)) shapeCasts_S16384x1024_S8x2048x1024
      ∧ r.2.mem ((c.tc : Thread nD τ).loc main_v15) = shapeCast S8x2048x1024 (Lstm.cellArr (hid m c) (inp m c) (cel m c) (wHid m c) (wInp m c) (bia m c)) shapeCasts_S16384x1024_S8x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_v13 (Pipeline.mem_restRefs_of main_v13 (by decide) (by decide))).trans (tail_gate m c),
      ((h c).2 main_v14 (Pipeline.mem_restRefs_of main_v14 (by decide) (by decide))).trans (tail_hidden m c),
      ((h c).2 main_v15 (Pipeline.mem_restRefs_of main_v15 (by decide) (by decide))).trans (tail_cell m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.Region

end
-- ==== Proof.Value.Entry.lean ====
/-
  What the six input arrays of the region hold when it is entered, in terms of the program's arguments: the three
  activation arrays flattened to 16384 rows; the four weight matrices stacked into one 4096 x 2048 matrix, its left
  (respectively right) 1024 columns transposed and narrowed; the four bias vectors laid end to end as one row.
-/
import proofs.«125670_j31104153158088_1_alg».proof.Proof.IdealSide.Host
import Idealize.ShloMosaic.Lib.StableHlo.Run

set_option maxRecDepth 16384

noncomputable section

namespace Cert.KernelIdeal.Region

open Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The four gate weight matrices one under another. -/
def stackedW (c : Dev nD) : (⟨S4096x2048, .f32⟩ : BufTy).Contents (Elt F) :=
  concatenate S4096x2048 0 [⟨S1024x2048, (m ((c : Thread nD τ).loc main_arg3))⟩, ⟨S1024x2048, (m ((c : Thread nD τ).loc main_arg5))⟩, ⟨S1024x2048, (m ((c : Thread nD τ).loc main_arg7))⟩, ⟨S1024x2048, (m ((c : Thread nD τ).loc main_arg9))⟩] concatenates_S1024x2048_S1024x2048_S1024x2048_S1024x2048_S4096x2048_d0

/-- The four bias vectors end to end. -/
def stackedB (c : Dev nD) : (⟨S4096, .f32⟩ : BufTy).Contents (Elt F) :=
  concatenate S4096 0 [⟨S1024, (m ((c : Thread nD τ).loc main_arg4))⟩, ⟨S1024, (m ((c : Thread nD τ).loc main_arg6))⟩, ⟨S1024, (m ((c : Thread nD τ).loc main_arg8))⟩, ⟨S1024, (m ((c : Thread nD τ).loc main_arg10))⟩] concatenates_S1024_S1024_S1024_S1024_S4096_d0

theorem entry_hidden (c : Dev nD) : V m c main_v9 = shapeCast S16384x1024 (m ((c : Thread nD τ).loc main_arg1)) shapeCasts_S8x2048x1024_S16384x1024 := by
  show StableHlo.after hostOps0 (fun b => m (c, b)) (Proc.devRef .tc main_v9) = _
  after_results; rfl

theorem entry_input (c : Dev nD) : V m c main_v10 = shapeCast S16384x1024 (m ((c : Thread nD τ).loc main_arg0)) shapeCasts_S8x2048x1024_S16384x1024 := by
  show StableHlo.after hostOps0 (fun b => m (c, b)) (Proc.devRef .tc main_v10) = _
  after_results; rfl

theorem entry_cell (c : Dev nD) : V m c main_v11 = shapeCast S16384x1024 (m ((c : Thread nD τ).loc main_arg2)) shapeCasts_S8x2048x1024_S16384x1024 := by
  show StableHlo.after hostOps0 (fun b => m (c, b)) (Proc.devRef .tc main_v11) = _
  after_results; rfl

theorem entry_wHidden (c : Dev nD) : V m c main_v6
    = truncf .bf16 (transpose S1024x4096 [1, 0] (extractStridedSlice S4096x1024 ![0, 0] (stackedW m c) slices_S4096x2048_S4096x1024_0_0) transposes_S4096x1024_S1024x4096_1_0) bitsLt_bf16_f32 := by
  show StableHlo.after hostOps0 (fun b => m (c, b)) (Proc.devRef .tc main_v6) = _
  unfold stackedW
  after_results; rfl

theorem entry_wInput (c : Dev nD) : V m c main_v8
    = truncf .bf16 (transpose S1024x4096 [1, 0] (extractStridedSlice S4096x1024 ![0, 1024] (stackedW m c) slices_S4096x2048_S4096x1024_0_1024) transposes_S4096x1024_S1024x4096_1_0) bitsLt_bf16_f32 := by
  show StableHlo.after hostOps0 (fun b => m (c, b)) (Proc.devRef .tc main_v8) = _
  unfold stackedW
  after_results; rfl

theorem entry_bias (c : Dev nD) : V m c main_v2 = shapeCast S1x4096 (stackedB m c) shapeCasts_S4096_S1x4096 := by
  show StableHlo.after hostOps0 (fun b => m (c, b)) (Proc.devRef .tc main_v2) = _
  unfold stackedB
  after_results; rfl

end Cert.KernelIdeal.Region

end
-- ==== Proof.Value.Layout.lean ====
/-
  The layout operations around the region, read at an element, and the one law that joins the two programs.

  Flattening [8, 2048, 1024] to [16384, 1024] sends (b, t, k) to row 2048·b + t; a transposed half of the stacked
  weights at (k, o) is the stacked weights at (o, off + k); the bias row at (0, o) is the bias vector at o; the
  hidden state and the input laid side by side along the last axis hold the hidden state in columns 0 … 1023 and the
  input in columns 1024 … 2047.  Hence the row-by-row pre-activation of the flattened, split arrays is the single
  contraction over all 2048 columns plus the bias.
-/
import proofs.«125670_j31104153158088_1_alg».proof.Proof.Value.Spec
import Idealize.ShloMosaic.Lib.Pipeline.Value
import Idealize.ShloMosaic.Lib.ValueIdx

noncomputable section

open scoped BigOperators

namespace Cert.Lstm

open Idealize.ShloMosaic Idealize.ShloMosaic.ValueIdx

abbrev Act : Shape := ⟨3, ![8, 2048, 1024]⟩
abbrev Cat : Shape := ⟨3, ![8, 2048, 2048]⟩
abbrev Stack : Shape := ⟨2, ![4096, 2048]⟩
abbrev Half : Shape := ⟨2, ![4096, 1024]⟩
abbrev BiasVec : Shape := ⟨1, ![4096]⟩

/-- Row 2048·b + t of the flattened array is row (b, t) of the array. -/
theorem flatten_at {α : Type} (a : Act.Idx → α) (h : Act.ShapeCasts Rows) (b : Fin 8) (t : Fin 2048) (k : Fin 1024)
    (r : Fin 16384) (hr : r.val = b.val * 2048 + t.val) : shapeCast Rows a h (ix2 r k) = a (ix3 b t k) :=
  shapeCast_apply a h (ix2 r k) (ix3 b t k) (by
    rw [Shape.rowMajor_val_three, Shape.rowMajor_val_two]
    show (b.val * 2048 + t.val) * 1024 + k.val = r.val * 1024 + k.val
    rw [hr])

/-- And back: entry (b, t, j) of the unflattened array is entry (2048·b + t, j). -/
theorem unflatten_at {α : Type} (G : Rows.Idx → α) (h : Rows.ShapeCasts Act) (b : Fin 8) (t : Fin 2048) (j : Fin 1024)
    (r : Fin 16384) (hr : r.val = b.val * 2048 + t.val) : shapeCast Act G h (ix3 b t j) = G (ix2 r j) :=
  shapeCast_apply G h (ix3 b t j) (ix2 r j) (by
    rw [Shape.rowMajor_val_three, Shape.rowMajor_val_two]
    show r.val * 1024 + j.val = (b.val * 2048 + t.val) * 1024 + j.val
    rw [hr])

/-- A transposed, narrowed half of the stacked weights at (k, o) is the stacked weights at (o, off + k). -/
theorem weightT_at (W : Stack.Idx → EReal) (off : Nat) (hs : Stack.Slices ![0, off] Half) (ht : Half.Transposes [1, 0] Wide)
    (hb : FTy.bits .bf16 < FTy.bits .f32) (k : Fin 1024) (o : Fin 4096) (hk : off + k.val < 2048) :
    (truncf (F := Ideal) .bf16 (transpose Wide [1, 0] (extractStridedSlice Half ![0, off] W hs) ht) hb : FVec Ideal Wide .bf16) (ix2 k o)
      = W (ix2 o ⟨off + k.val, hk⟩) := by
  show transpose Wide [1, 0] (extractStridedSlice Half ![0, off] W hs) ht (ix2 k o) = _
  rw [transpose_apply [1, 0] _ ht (ix2 k o) (ix2 o k) (fun b => by
    match b with
    | ⟨0, _⟩ => rfl
    | ⟨1, _⟩ => rfl)]
  exact extractStridedSlice_apply ![0, off] W hs (ix2 o k) (ix2 o ⟨off + k.val, hk⟩) (fun a => by
    match a with
    | ⟨0, _⟩ => show o.val = 0 + o.val; omega
    | ⟨1, _⟩ => rfl)

/-- The bias row at (0, o) is the bias vector at o. -/
theorem biasRow_at {α : Type} (bv : BiasVec.Idx → α) (h : BiasVec.ShapeCasts BiasRow) (o : Fin 4096) :
    shapeCast BiasRow bv h (ix2 0 o) = bv (ix1 o) :=
  shapeCast_apply bv h (ix2 0 o) (ix1 o) (by
    rw [Shape.rowMajor_val_one, Shape.rowMajor_val_two]
    show o.val = 0 * 4096 + o.val
    omega)

/-- Columns 0 … 1023 of the two arrays laid side by side are the first array's. -/
theorem cat_left {α : Type} (a x : Act.Idx → α) (h : Shape.Concatenates [Act, Act] Cat 2) (b : Fin 8) (t : Fin 2048) (k : Fin 1024) :
    concatenate Cat 2 [⟨Act, a⟩, ⟨Act, x⟩] h (ix3 b t ⟨k.val, by omega⟩) = a (ix3 b t k) :=
  concatenate_pair_apply_left 2 a x h _ rfl (ix3 b t k) (fun bb => by
    match bb with
    | ⟨0, _⟩ => rfl
    | ⟨1, _⟩ => rfl
    | ⟨2, _⟩ => rfl)

/-- Columns 1024 … 2047 are the second array's. -/
theorem cat_right {α : Type} (a x : Act.Idx → α) (h : Shape.Concatenates [Act, Act] Cat 2) (b : Fin 8) (t : Fin 2048) (k : Fin 1024) :
    concatenate Cat 2 [⟨Act, a⟩, ⟨Act, x⟩] h (ix3 b t ⟨1024 + k.val, by omega⟩) = x (ix3 b t k) :=
  concatenate_pair_apply_right 2 a x h _ rfl rfl (ix3 b t k) (fun bb hne => by
    match bb with
    | ⟨0, _⟩ => rfl
    | ⟨1, _⟩ => rfl
    | ⟨2, _⟩ => exact absurd rfl hne) (by show k.val + 1024 = 1024 + k.val; omega)

/-- THE LAW: over the flattened activations, the two transposed halves of the stacked weights and the bias row, the
    row-by-row pre-activation is one contraction over all 2048 columns of the two activations side by side, plus the
    bias.  The 2048-term sum splits into its two halves; nothing else is rearranged. -/
theorem pre_joined (a x : Act.Idx → EReal) (W : Stack.Idx → EReal) (bv : BiasVec.Idx → EReal)
    (hf : Act.ShapeCasts Rows) (hs0 : Stack.Slices ![0, 0] Half) (hs1 : Stack.Slices ![0, 1024] Half)
    (ht : Half.Transposes [1, 0] Wide) (hb : FTy.bits .bf16 < FTy.bits .f32) (hr1 : BiasVec.ShapeCasts BiasRow)
    (hc : Shape.Concatenates [Act, Act] Cat 2)
    (b : Fin 8) (t : Fin 2048) (r : Fin 16384) (hr : r.val = b.val * 2048 + t.val) (o : Fin 4096) :
    pre (shapeCast Rows a hf) (shapeCast Rows x hf)
        (truncf (F := Ideal) .bf16 (transpose Wide [1, 0] (extractStridedSlice Half ![0, 0] W hs0) ht) hb)
        (truncf (F := Ideal) .bf16 (transpose Wide [1, 0] (extractStridedSlice Half ![0, 1024] W hs1) ht) hb)
        (shapeCast BiasRow bv hr1) r o
      = (∑ k : Fin 2048, concatenate Cat 2 [⟨Act, a⟩, ⟨Act, x⟩] hc (ix3 b t k) * W (ix2 o k)) + bv (ix1 o) := by
  unfold pre
  rw [sum_halves, biasRow_at]
  congr 2
  · refine Finset.sum_congr rfl fun k _ => ?_
    rw [flatten_at a hf b t k r hr, weightT_at W 0 hs0 ht hb k o (by omega), cat_left a x hc b t k]
    simp only [Nat.zero_add]
  · refine Finset.sum_congr rfl fun k _ => ?_
    rw [flatten_at x hf b t k r hr, weightT_at W 1024 hs1 ht hb k o (by omega), cat_right a x hc b t k]

end Cert.Lstm

end
-- ==== Proof.Value.Congr.lean ====
/-
  The three results depend on the arrays only through the pre-activations of their row (and, for the cell and hidden
  states, the old cell entry): whatever the pre-activation of row `r` is known to equal, column by column, may be
  put in its place.
-/
import proofs.«125670_j31104153158088_1_alg».proof.Proof.Value.Spec

noncomputable section

namespace Cert.Lstm

open Idealize.ShloMosaic Idealize.ShloMosaic.ValueIdx

variable (A X C : Rows.Idx → EReal) (Wa Wx : Wide.Idx → EReal) (β : BiasRow.Idx → EReal) (r : Fin 16384) (q : Fin 1024)
variable (P : Fin 4096 → EReal) (hP : ∀ o, pre A X Wa Wx β r o = P o)
include hP

theorem gateAt_of_pre : gateAt A X Wa Wx β r q = Ideal.logistic (P ⟨3072 + q.val, by omega⟩) := by
  unfold gateAt; rw [hP]

theorem cellAt_of_pre (cq : EReal) (hc : C (ix2 r q) = cq) :
    cellAt A X C Wa Wx β r q
      = Ideal.logistic (P ⟨q.val, by omega⟩) * cq + Ideal.logistic (P ⟨1024 + q.val, by omega⟩) * Ideal.tanh (P ⟨2048 + q.val, by omega⟩) := by
  unfold cellAt; rw [hP, hP, hP, hc]

theorem hiddenAt_of_pre (cq : EReal) (hc : C (ix2 r q) = cq) :
    hiddenAt A X C Wa Wx β r q
      = Ideal.logistic (P ⟨3072 + q.val, by omega⟩)
        * Ideal.tanh (Ideal.logistic (P ⟨q.val, by omega⟩) * cq + Ideal.logistic (P ⟨1024 + q.val, by omega⟩) * Ideal.tanh (P ⟨2048 + q.val, by omega⟩)) := by
  unfold hiddenAt; rw [gateAt_of_pre A X Wa Wx β r q P hP, cellAt_of_pre A X C Wa Wx β r q P hP cq hc]

end Cert.Lstm

end
-- ==== Proof.Value.RefValue.lean ====
/-
  The reference read at an element.  Its gate pre-activation at (b, t, o) is one contraction over the 2048 columns of
  the hidden state and the input laid side by side against row o of the stacked weights, plus the stacked bias at o;
  its three results at (b, t, j) are the logistic / tanh combinations of the pre-activation's four column groups, the
  logistic spelt as 1 / (1 + exp(−z)).
-/
import proofs.«125670_j31104153158088_1_alg».proof.Proof.Gen.ReferenceIdeal.Read
import proofs.«125670_j31104153158088_1_alg».proof.Proof.Value.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

variable (x0 x1 x2 : (⟨S8x2048x1024, .f32⟩ : BufTy).Contents (Elt Ideal))
variable (x3 x5 x7 x9 : (⟨S1024x2048, .f32⟩ : BufTy).Contents (Elt Ideal))
variable (x4 x6 x8 x10 : (⟨S1024, .f32⟩ : BufTy).Contents (Elt Ideal))

/-- The pre-activation at (b, t, o). -/
theorem pre_at (b : Fin 8) (t : Fin 2048) (o : Fin 4096) :
    val_main_v6 (F := Ideal) x0 x1 x3 x4 x5 x6 x7 x8 x9 x10 (ix3 b t o)
      = (∑ k : Fin 2048, val_main_v0 (F := Ideal) x0 x1 (ix3 b t k) * val_main_v1 (F := Ideal) x3 x5 x7 x9 (ix2 o k))
        + val_main_v2 (F := Ideal) x4 x6 x8 x10 (ix1 o) := by
  rw [val_main_v6_apply, val_main_v3_apply, val_main_v5_apply, val_main_v4_apply]
  have el : ∀ k : Fin 2048, lidx_main_v3 (ix3 b t o) k = ix3 b t k := fun k => funext fun a => by
    match a with
    | ⟨0, _⟩ => rfl
    | ⟨1, _⟩ => rfl
    | ⟨2, _⟩ => rfl
  have er : ∀ k : Fin 2048, ridx_main_v3 (ix3 b t o) k = ix2 o k := fun k => funext fun a => by
    match a with
    | ⟨0, _⟩ => rfl
    | ⟨1, _⟩ => rfl
  have eb : idx_main_v4 (idx_main_v5 (ix3 b t o)) = ix1 o := funext fun a => by
    match a with
    | ⟨0, _⟩ => rfl
  simp only [el, er, eb]
  rfl

/-- The four column groups' positions in the pre-activation. -/
theorem col0 (b : Fin 8) (t : Fin 2048) (j : Fin 1024) : idx_main_v7 (ix3 b t j) = ix3 b t ⟨j.val, by omega⟩ := funext fun a => by
  match a with
  | ⟨0, _⟩ => rfl
  | ⟨1, _⟩ => rfl
  | ⟨2, _⟩ => rfl
theorem col1 (b : Fin 8) (t : Fin 2048) (j : Fin 1024) : idx_main_v8 (ix3 b t j) = ix3 b t ⟨1024 + j.val, by omega⟩ := funext fun a => by
  match a with
  | ⟨0, _⟩ => rfl
  | ⟨1, _⟩ => rfl
  | ⟨2, _⟩ => rfl
theorem col2 (b : Fin 8) (t : Fin 2048) (j : Fin 1024) : idx_main_v9 (ix3 b t j) = ix3 b t ⟨2048 + j.val, by omega⟩ := funext fun a => by
  match a with
  | ⟨0, _⟩ => rfl
  | ⟨1, _⟩ => rfl
  | ⟨2, _⟩ => rfl
theorem col3 (b : Fin 8) (t : Fin 2048) (j : Fin 1024) : idx_main_v10 (ix3 b t j) = ix3 b t ⟨3072 + j.val, by omega⟩ := funext fun a => by
  match a with
  | ⟨0, _⟩ => rfl
  | ⟨1, _⟩ => rfl
  | ⟨2, _⟩ => rfl

/-- The output gate at (b, t, j). -/
theorem gate_at (b : Fin 8) (t : Fin 2048) (j : Fin 1024) :
    val_main_v32 (F := Ideal) x0 x1 x3 x4 x5 x6 x7 x8 x9 x10 (ix3 b t j)
      = Ideal.logistic (val_main_v6 (F := Ideal) x0 x1 x3 x4 x5 x6 x7 x8 x9 x10 (ix3 b t ⟨3072 + j.val, by omega⟩)) := by
  rw [val_main_v32_apply, val_main_v31_apply, val_main_cst_4_apply, val_main_v30_apply, val_main_v29_apply, val_main_cst_3_apply,
    val_main_v28_apply, val_main_v27_apply, val_main_v10_apply, col3]
  exact Lstm.logistic_spelt _

/-- The new cell state at (b, t, j). -/
theorem cell_at (b : Fin 8) (t : Fin 2048) (j : Fin 1024) :
    val_main_v26 (F := Ideal) x0 x1 x2 x3 x4 x5 x6 x7 x8 x9 x10 (ix3 b t j)
      = Ideal.logistic (val_main_v6 (F := Ideal) x0 x1 x3 x4 x5 x6 x7 x8 x9 x10 (ix3 b t ⟨j.val, by omega⟩)) * x2 (ix3 b t j)
        + Ideal.logistic (val_main_v6 (F := Ideal) x0 x1 x3 x4 x5 x6 x7 x8 x9 x10 (ix3 b t ⟨1024 + j.val, by omega⟩))
          * Ideal.tanh (val_main_v6 (F := Ideal) x0 x1 x3 x4 x5 x6 x7 x8 x9 x10 (ix3 b t ⟨2048 + j.val, by omega⟩)) := by
  rw [val_main_v26_apply, val_main_v23_apply, val_main_v16_apply, val_main_v15_apply, val_main_cst_0_apply, val_main_v14_apply,
    val_main_v13_apply, val_main_cst_apply, val_main_v12_apply, val_main_v11_apply, val_main_v7_apply, col0,
    val_main_v25_apply, val_main_v22_apply, val_main_v21_apply, val_main_cst_2_apply, val_main_v20_apply, val_main_v19_apply,
    val_main_cst_1_apply, val_main_v18_apply, val_main_v17_apply, val_main_v8_apply, col1, val_main_v24_apply, val_main_v9_apply, col2]
  show Ideal.div _ (_ + Ideal.exp (-_)) * _ + Ideal.div _ (_ + Ideal.exp (-_)) * Ideal.tanh _ = _
  rw [Ideal.ofBits_def, Lstm.logistic_spelt, Lstm.logistic_spelt]

/-- The new hidden state at (b, t, j). -/
theorem hidden_at (b : Fin 8) (t : Fin 2048) (j : Fin 1024) :
    val_main_v34 (F := Ideal) x0 x1 x2 x3 x4 x5 x6 x7 x8 x9 x10 (ix3 b t j)
      = val_main_v32 (F := Ideal) x0 x1 x3 x4 x5 x6 x7 x8 x9 x10 (ix3 b t j) * Ideal.tanh (val_main_v26 (F := Ideal) x0 x1 x2 x3 x4 x5 x6 x7 x8 x9 x10 (ix3 b t j)) := by
  rw [val_main_v34_apply, val_main_v33_apply]
  rfl

end Cert.ReferenceIdeal.RefValue

end
-- ==== Proof.Value.Bridge.lean ====
/-
  The idealized kernel's three results are the reference's three stages, as functions of the same arguments.

  At (b, t, j) the kernel's result is the row-by-row LSTM step at row 2048·b + t of the flattened activations against
  the two transposed halves of the stacked weights; the reference's is the same combination of logistic and tanh of its
  pre-activation, which contracts all 2048 columns at once.  The two pre-activations are equal (the sum splits in two
  halves), so the results are.
-/
import proofs.«125670_j31104153158088_1_alg».proof.Proof.Value.KernelRun
import proofs.«125670_j31104153158088_1_alg».proof.Proof.Value.Entry
import proofs.«125670_j31104153158088_1_alg».proof.Proof.Value.Layout
import proofs.«125670_j31104153158088_1_alg».proof.Proof.Value.Congr
import proofs.«125670_j31104153158088_1_alg».proof.Proof.Value.RefValue

set_option maxRecDepth 16384

noncomputable section

open scoped BigOperators

namespace Cert.KernelIdeal.Region

open Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The kernel's row-by-row pre-activation at row 2048·b + t is the reference's pre-activation at (b, t, ·). -/
theorem pre_bridge (b : Fin 8) (t : Fin 2048) (r : Fin 16384) (hr : r.val = b.val * 2048 + t.val) (o : Fin 4096) :
    Lstm.pre (hid m c) (inp m c) (wHid m c) (wInp m c) (bia m c) r o = Cert.ReferenceIdeal.Read.val_main_v6 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 b t o) := by
  rw [Cert.ReferenceIdeal.RefValue.pre_at]
  show Lstm.pre (V m c main_v9) (V m c main_v10) (V m c main_v6) (V m c main_v8) (V m c main_v2) r o = _
  rw [entry_hidden, entry_input, entry_wHidden, entry_wInput, entry_bias]
  exact Lstm.pre_joined _ _ _ _ _ _ _ _ _ _ _ b t r hr o

/-- The old cell state at row 2048·b + t is the cell argument at (b, t, ·). -/
theorem cel_bridge (b : Fin 8) (t : Fin 2048) (r : Fin 16384) (hr : r.val = b.val * 2048 + t.val) (j : Fin 1024) :
    cel m c (ix2 r j) = (m ((c : Thread nD τ).loc main_arg2)) (ix3 b t j) := by
  show V m c main_v11 (ix2 r j) = _
  rw [entry_cell]
  exact Lstm.flatten_at _ _ b t j r hr

theorem row_lt (b : Fin 8) (t : Fin 2048) : b.val * 2048 + t.val < 16384 := by
  have := b.isLt; have := t.isLt; omega

/-- The output gate. -/
theorem gate_bridge :
    shapeCast S8x2048x1024 (Lstm.gateArr (hid m c) (inp m c) (wHid m c) (wInp m c) (bia m c)) shapeCasts_S16384x1024_S8x2048x1024
      = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨b, t, j, rfl⟩ : ∃ (b : Fin 8) (t : Fin 2048) (j : Fin 1024), i = ix3 b t j := ⟨i 0, i 1, i 2, eq_ix3 i⟩
  rw [Lstm.unflatten_at _ _ b t j ⟨b.val * 2048 + t.val, row_lt b t⟩ rfl, Cert.ReferenceIdeal.RefValue.gate_at]
  exact Lstm.gateAt_of_pre _ _ _ _ _ _ j _ (pre_bridge m c b t _ rfl)

/-- The new cell state. -/
theorem cell_bridge :
    shapeCast S8x2048x1024 (Lstm.cellArr (hid m c) (inp m c) (cel m c) (wHid m c) (wInp m c) (bia m c)) shapeCasts_S16384x1024_S8x2048x1024
      = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨b, t, j, rfl⟩ : ∃ (b : Fin 8) (t : Fin 2048) (j : Fin 1024), i = ix3 b t j := ⟨i 0, i 1, i 2, eq_ix3 i⟩
  rw [Lstm.unflatten_at _ _ b t j ⟨b.val * 2048 + t.val, row_lt b t⟩ rfl, Cert.ReferenceIdeal.RefValue.cell_at]
  exact Lstm.cellAt_of_pre _ _ _ _ _ _ _ j _ (pre_bridge m c b t _ rfl) _ (cel_bridge m c b t _ rfl j)

/-- The new hidden state. -/
theorem hidden_bridge :
    shapeCast S8x2048x1024 (Lstm.hiddenArr (hid m c) (inp m c) (cel m c) (wHid m c) (wInp m c) (bia m c)) shapeCasts_S16384x1024_S8x2048x1024
      = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨b, t, j, rfl⟩ : ∃ (b : Fin 8) (t : Fin 2048) (j : Fin 1024), i = ix3 b t j := ⟨i 0, i 1, i 2, eq_ix3 i⟩
  rw [Lstm.unflatten_at _ _ b t j ⟨b.val * 2048 + t.val, row_lt b t⟩ rfl, Cert.ReferenceIdeal.RefValue.hidden_at, Cert.ReferenceIdeal.RefValue.gate_at, Cert.ReferenceIdeal.RefValue.cell_at]
  exact Lstm.hiddenAt_of_pre _ _ _ _ _ _ _ j _ (pre_bridge m c b t _ rfl) _ (cel_bridge m c b t _ rfl j)

end Cert.KernelIdeal.Region

end
-- ==== Proof.lean ====
/-
  One step of an LSTM cell, fused: a Pallas kernel that multiplies 128-row blocks of the hidden state and of the input
  by the two transposed halves of the stacked gate weights, adds the bias and combines the four gate groups, against
  a reference that contracts the hidden state and the input, laid side by side, with the stacked weights in one
  product.  Over the extended reals the two agree element by element: the only rearrangement is that a sum of 2048
  products is the sum of its first 1024 plus the sum of its last 1024, and the reference's 1 / (1 + exp(−z)) is the
  kernel's logistic function; narrowing the operands to bf16 is the identity there.  No finiteness of the inputs is
  used.

  The frames: the kernel program is one region between two stretches of host operations; each grid point's body runs on
  whole staging buffers and stores whole blocks, the host operations write only their own results, so every execution
  terminates without a fault and leaves the eleven arguments as launched.  The reference is a straight line of host
  operations.  The kernel's idealization rewrote no operation, so there is nothing for it to preserve.
-/
import proofs.«125670_j31104153158088_1_alg».proof.Defs
import proofs.«125670_j31104153158088_1_alg».proof.Proof.Gen.Kernel
import proofs.«125670_j31104153158088_1_alg».proof.Proof.Gen.KernelIdeal
import proofs.«125670_j31104153158088_1_alg».proof.Proof.Gen.ReferenceIdeal
import proofs.«125670_j31104153158088_1_alg».proof.Proof.Gen.Pre_finite_inputs
import proofs.«125670_j31104153158088_1_alg».proof.Proof.Gen.ReferenceIdeal.Run
import proofs.«125670_j31104153158088_1_alg».proof.Proof.Gen.ReferenceIdeal.Read
import proofs.«125670_j31104153158088_1_alg».proof.Proof.BitsSide.Run
import proofs.«125670_j31104153158088_1_alg».proof.Proof.IdealSide.Run
import proofs.«125670_j31104153158088_1_alg».proof.Proof.Value.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame m ρ

theorem frame_kernelIdeal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Run from memories that agree on the arguments, both programs end with the same three results: the kernel's are
    the folded result arrays of its region, the reference's its three stages, and these are one function of the
    arguments. -/
theorem algebraic : Cert.algebraic_KernelIdeal_ReferenceIdeal := by
  intro m ρ m' ρ' _ hagree
  refine ⟨_, _, _, Cert.KernelIdeal.Region.run_values m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10⟩ := hagree c
  refine ⟨(h c).1.trans ?_, (h c).2.1.trans ?_, (h c).2.2.1.trans ?_, (h c).2.2.2⟩
  · rw [Cert.ReferenceIdeal.Read.val_main_v32_eq, h0, h1, h3, h4, h5, h6, h7, h8, h9, h10]
    exact (Cert.KernelIdeal.Region.gate_bridge m c).symm
  · rw [Cert.ReferenceIdeal.Read.val_main_v34_eq, h0, h1, h2, h3, h4, h5, h6, h7, h8, h9, h10]
    exact (Cert.KernelIdeal.Region.hidden_bridge m c).symm
  · rw [Cert.ReferenceIdeal.Read.val_main_v26_eq, h0, h1, h2, h3, h4, h5, h6, h7, h8, h9, h10]
    exact (Cert.KernelIdeal.Region.cell_bridge m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
